-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_arg7 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x40 .f32) (main_arg6 : FVec F S40 .f32) (main_arg7 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S100000x40 : Shape := ⟨2, ![100000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x40, .f32⟩
  | .local _ .vmem, ⟨14, _⟩ => ⟨S40, .f32⟩
  | .local _ .vmem, ⟨15, _⟩ => ⟨S128x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40.size a ≤ S40.size a
  hwx1_3 : ∀ i : grid1.Coords, EltTy.bits .f32 = 32 ∨ (Rect.block (s := S40) S40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KStages.lean ====
/-
  The host side of the graph convolution as the kernel program states it: the edge list's two rows,
  and the mean aggregation of a feature array over the incoming edges of every node.
-/
import proofs.«138470_j38628935860964_1_alg».proof.Proof.Gen.KernelIdeal

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- The edges' source nodes: row 0 of the `[2, E]` edge list, as a vector of length `E`. -/
def srcOf (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- Mean aggregation over incoming edges: gather the rows of `x` at the sources `s` (a negative index
    wrapped once by the row count), add them up at the destinations `d` from zero, and divide each
    node's sum by its in-degree (the count of edges arriving there, taken at least one). -/
def aggT (x : FVec F S100000x128 .f32) (s d : IVec S1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

end Cert.KernelIdeal.Stages

end
-- ==== Proof.KHost.lean ====
/-
  The kernel program's two stretches of host operations, read from any starting contents.

  The first stretch splits the edge list into its sources and destinations and computes the mean
  aggregation of the node features; the second computes the mean aggregation of the hidden features
  over the same edges, reading the sources and destinations the first stretch left. Neither writes an
  argument of the program, and the second leaves the hidden features where they are.
-/
import proofs.«138470_j38628935860964_1_alg».proof.Proof.Gen.KernelIdeal.Launch
import proofs.«138470_j38628935860964_1_alg».proof.Proof.KStages
import Idealize.ShloMosaic.Lib.StableHlo.Run

set_option maxRecDepth 16384

noncomputable section

namespace Cert.KernelIdeal.HostStretch

open Cert.KernelIdeal Cert.KernelIdeal.Gen Cert.KernelIdeal.Stages Idealize.ShloMosaic Idealize.ShloMosaic.TcCoe Idealize.SL.Sem Idealize.ShloMosaic.StableHlo

variable {F : FTy → Type} [FloatOps F]
variable (V : Valuation τ sig (Elt F))

set_option maxHeartbeats 1000000 in
/-- After the first stretch the aggregated features are the mean aggregation of the node features over
    the edge list's two rows. -/
theorem host0_v22 : StableHlo.after (hostOps0 (F := F)) V (Proc.devRef .tc main_v22)
    = aggT (V (Proc.devRef .tc main_arg0)) (srcOf (V (Proc.devRef .tc main_arg1))) (dstOf (V (Proc.devRef .tc main_arg1))) := by
  simp only [hostOps0]; after_results_simp; unfold aggT srcOf dstOf; rfl

/-- The first stretch leaves the edges' sources … -/
theorem host0_v1 : StableHlo.after (hostOps0 (F := F)) V (Proc.devRef .tc main_v1) = srcOf (V (Proc.devRef .tc main_arg1)) := by
  simp only [hostOps0]; after_results; rfl

/-- … and destinations in buffers of their own. -/
theorem host0_v3 : StableHlo.after (hostOps0 (F := F)) V (Proc.devRef .tc main_v3) = dstOf (V (Proc.devRef .tc main_arg1)) := by
  simp only [hostOps0]; after_results; rfl

/-! The first stretch writes no argument. -/
theorem host0_arg0 : StableHlo.after (hostOps0 (F := F)) V (Proc.devRef .tc main_arg0) = V (Proc.devRef .tc main_arg0) := by
  simp only [hostOps0]; after_results
theorem host0_arg1 : StableHlo.after (hostOps0 (F := F)) V (Proc.devRef .tc main_arg1) = V (Proc.devRef .tc main_arg1) := by
  simp only [hostOps0]; after_results
theorem host0_arg2 : StableHlo.after (hostOps0 (F := F)) V (Proc.devRef .tc main_arg2) = V (Proc.devRef .tc main_arg2) := by
  simp only [hostOps0]; after_results
theorem host0_arg3 : StableHlo.after (hostOps0 (F := F)) V (Proc.devRef .tc main_arg3) = V (Proc.devRef .tc main_arg3) := by
  simp only [hostOps0]; after_results
theorem host0_arg4 : StableHlo.after (hostOps0 (F := F)) V (Proc.devRef .tc main_arg4) = V (Proc.devRef .tc main_arg4) := by
  simp only [hostOps0]; after_results
theorem host0_arg5 : StableHlo.after (hostOps0 (F := F)) V (Proc.devRef .tc main_arg5) = V (Proc.devRef .tc main_arg5) := by
  simp only [hostOps0]; after_results
theorem host0_arg6 : StableHlo.after (hostOps0 (F := F)) V (Proc.devRef .tc main_arg6) = V (Proc.devRef .tc main_arg6) := by
  simp only [hostOps0]; after_results
theorem host0_arg7 : StableHlo.after (hostOps0 (F := F)) V (Proc.devRef .tc main_arg7) = V (Proc.devRef .tc main_arg7) := by
  simp only [hostOps0]; after_results

set_option maxHeartbeats 1000000 in
/-- After the second stretch the aggregated hidden features are the mean aggregation of the hidden
    features over the sources and destinations found in their buffers. -/
theorem host1_v42 : StableHlo.after (hostOps1 (F := F)) V (Proc.devRef .tc main_v42)
    = aggT (V (Proc.devRef .tc main_v23)) (V (Proc.devRef .tc main_v1)) (V (Proc.devRef .tc main_v3)) := by
  simp only [hostOps1]; after_results_simp; unfold aggT; rfl

/-! The second stretch leaves the hidden features and the arguments the output layer reads. -/
theorem host1_v23 : StableHlo.after (hostOps1 (F := F)) V (Proc.devRef .tc main_v23) = V (Proc.devRef .tc main_v23) := by
  simp only [hostOps1]; after_results
theorem host1_arg5 : StableHlo.after (hostOps1 (F := F)) V (Proc.devRef .tc main_arg5) = V (Proc.devRef .tc main_arg5) := by
  simp only [hostOps1]; after_results
theorem host1_arg6 : StableHlo.after (hostOps1 (F := F)) V (Proc.devRef .tc main_arg6) = V (Proc.devRef .tc main_arg6) := by
  simp only [hostOps1]; after_results
theorem host1_arg7 : StableHlo.after (hostOps1 (F := F)) V (Proc.devRef .tc main_arg7) = V (Proc.devRef .tc main_arg7) := by
  simp only [hostOps1]; after_results

end Cert.KernelIdeal.HostStretch

end
-- ==== Proof.Spec.lean ====
/-
  The two layers of a mean-aggregating graph convolution, as functions of arrays, index by index,
  over the extended reals.

  One layer maps a pair of row-aligned arrays `a` (the neighbourhood means) and `x` (the nodes' own
  features), both `[M, K]`, through two weight matrices `wl`, `wr : [K, N]` and a bias `b : [N]`:
      affine[p, q] = (∑ k, a[p, k] * wl[k, q]) + b[q] + ∑ k, x[p, k] * wr[k, q].
  The hidden layer clamps it below at zero; the output layer takes, along each row, the logarithm
  of the softmax in its shifted form: with `μ` the row's maximum (taken from `-∞`),
      out[p, q] = (affine[p, q] - μ) - log (∑ j, exp (affine[p, j] - μ)).
  Row `p` of either result depends on `a` and `x` through their rows `p` alone, which is what lets a
  block of rows be computed from the same block of rows of the inputs.
-/
import Idealize.ShloMosaic.PureOps.Ideal
import Idealize.ShloMosaic.PureOps.Ideal.Laws
import Idealize.ShloMosaic.Lib.ValueIdx
import Mathlib.Data.Finset.Fold

noncomputable section

open scoped BigOperators

namespace Cert.Sage

open Idealize.ShloMosaic Idealize.ShloMosaic.ValueIdx

/-- `(a · wl)[p, q] + b[q] + (x · wr)[p, q]`, summed in that order. -/
def affine {M K N : Nat} (a x : (⟨2, ![M, K]⟩ : Shape).Idx → EReal) (wl wr : (⟨2, ![K, N]⟩ : Shape).Idx → EReal)
    (b : (⟨1, ![N]⟩ : Shape).Idx → EReal) (p : Fin M) (q : Fin N) : EReal :=
  ((∑ k : Fin K, a (ix2 p k) * wl (ix2 k q)) + b (ix1 q)) + ∑ k : Fin K, x (ix2 p k) * wr (ix2 k q)

/-- The affine map at a row depends on `a` and `x` through that row only: two pairs of arrays, of any
    heights, that agree along the rows `p` and `p'` give the same value there. -/
theorem affine_congr {M M' K N : Nat} (a x : (⟨2, ![M, K]⟩ : Shape).Idx → EReal)
    (a' x' : (⟨2, ![M', K]⟩ : Shape).Idx → EReal) (wl wr : (⟨2, ![K, N]⟩ : Shape).Idx → EReal)
    (b : (⟨1, ![N]⟩ : Shape).Idx → EReal) (p : Fin M) (p' : Fin M') (q : Fin N)
    (ha : ∀ k : Fin K, a (ix2 p k) = a' (ix2 p' k)) (hx : ∀ k : Fin K, x (ix2 p k) = x' (ix2 p' k)) :
    affine a x wl wr b p q = affine a' x' wl wr b p' q := by
  have ea : (∑ k : Fin K, a (ix2 p k) * wl (ix2 k q)) = ∑ k : Fin K, a' (ix2 p' k) * wl (ix2 k q) :=
    Finset.sum_congr rfl fun k _ => by rw [ha k]
  have ex : (∑ k : Fin K, x (ix2 p k) * wr (ix2 k q)) = ∑ k : Fin K, x' (ix2 p' k) * wr (ix2 k q) :=
    Finset.sum_congr rfl fun k _ => by rw [hx k]
  unfold affine
  rw [ea, ex]

/-- The hidden layer: the affine map clamped below at zero (the zero written as the word it is
    printed with, the same on both sides of the comparison). -/
def hidden {M K N : Nat} (a x : (⟨2, ![M, K]⟩ : Shape).Idx → EReal) (wl wr : (⟨2, ![K, N]⟩ : Shape).Idx → EReal)
    (b : (⟨1, ![N]⟩ : Shape).Idx → EReal) : (⟨2, ![M, N]⟩ : Shape).Idx → EReal :=
  fun i => max (affine a x wl wr b (i 0) (i 1)) (Ideal.ofBits .f32 0x00000000#32)

theorem hidden_ix2 {M K N : Nat} (a x : (⟨2, ![M, K]⟩ : Shape).Idx → EReal) (wl wr : (⟨2, ![K, N]⟩ : Shape).Idx → EReal)
    (b : (⟨1, ![N]⟩ : Shape).Idx → EReal) (p : Fin M) (q : Fin N) :
    hidden a x wl wr b (ix2 p q) = max (affine a x wl wr b p q) (Ideal.ofBits .f32 0x00000000#32) := rfl

/-- A row's maximum, folded from `-∞` (the word it is printed with). -/
def rowMax {N : Nat} (f : Fin N → EReal) : EReal :=
  (Finset.univ : Finset (Fin N)).fold max (Ideal.ofBits .f32 0xFF800000#32) f

/-- The logarithm of the softmax along a row, in the shifted form: subtract the row's maximum, then
    the logarithm of the sum of the exponentials of the shifted entries. -/
def logSoftmaxRow {N : Nat} (f : Fin N → EReal) (q : Fin N) : EReal :=
  (f q - rowMax f) - Ideal.log (∑ j : Fin N, Ideal.exp (f j - rowMax f))

/-- The output layer: the log-softmax, row by row, of the affine map. -/
def output {M K N : Nat} (a x : (⟨2, ![M, K]⟩ : Shape).Idx → EReal) (wl wr : (⟨2, ![K, N]⟩ : Shape).Idx → EReal)
    (b : (⟨1, ![N]⟩ : Shape).Idx → EReal) : (⟨2, ![M, N]⟩ : Shape).Idx → EReal :=
  fun i => logSoftmaxRow (fun j => affine a x wl wr b (i 0) j) (i 1)

theorem output_ix2 {M K N : Nat} (a x : (⟨2, ![M, K]⟩ : Shape).Idx → EReal) (wl wr : (⟨2, ![K, N]⟩ : Shape).Idx → EReal)
    (b : (⟨1, ![N]⟩ : Shape).Idx → EReal) (p : Fin M) (q : Fin N) :
    output a x wl wr b (ix2 p q) = logSoftmaxRow (fun j => affine a x wl wr b p j) q := rfl

/-- Row `p` of the hidden layer from arrays agreeing with `a`, `x` along that row. -/
theorem hidden_congr {M M' K N : Nat} (a x : (⟨2, ![M, K]⟩ : Shape).Idx → EReal)
    (a' x' : (⟨2, ![M', K]⟩ : Shape).Idx → EReal) (wl wr : (⟨2, ![K, N]⟩ : Shape).Idx → EReal)
    (b : (⟨1, ![N]⟩ : Shape).Idx → EReal) (p : Fin M) (p' : Fin M') (q : Fin N)
    (ha : ∀ k : Fin K, a (ix2 p k) = a' (ix2 p' k)) (hx : ∀ k : Fin K, x (ix2 p k) = x' (ix2 p' k)) :
    hidden a x wl wr b (ix2 p q) = hidden a' x' wl wr b (ix2 p' q) := by
  rw [hidden_ix2, hidden_ix2, affine_congr a x a' x' wl wr b p p' q ha hx]

/-- Row `p` of the output layer from arrays agreeing with `a`, `x` along that row. -/
theorem output_congr {M M' K N : Nat} (a x : (⟨2, ![M, K]⟩ : Shape).Idx → EReal)
    (a' x' : (⟨2, ![M', K]⟩ : Shape).Idx → EReal) (wl wr : (⟨2, ![K, N]⟩ : Shape).Idx → EReal)
    (b : (⟨1, ![N]⟩ : Shape).Idx → EReal) (p : Fin M) (p' : Fin M') (q : Fin N)
    (ha : ∀ k : Fin K, a (ix2 p k) = a' (ix2 p' k)) (hx : ∀ k : Fin K, x (ix2 p k) = x' (ix2 p' k)) :
    output a x wl wr b (ix2 p q) = output a' x' wl wr b (ix2 p' q) := by
  rw [output_ix2, output_ix2]
  have e : (fun j => affine a x wl wr b p j) = fun j => affine a' x' wl wr b p' j :=
    funext fun j => affine_congr a x a' x' wl wr b p p' j ha hx
  rw [e]

/-- The maximum against the fold's own starting value changes nothing: a fold of `max` is at least
    what it starts from. -/
theorem max_rowMax {N : Nat} (f : Fin N → EReal) :
    max (Ideal.ofBits .f32 0xFF800000#32) (rowMax f) = rowMax f :=
  max_eq_right ((Finset.le_fold_max _).2 (Or.inl le_rfl))

end Cert.Sage

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Payload.lean ====
/-
  What each kernel body stores, at the ideal instance, as the layer it computes.

  The first body multiplies its two row blocks by the two weight matrices on the matrix unit (the
  narrowing of the operands to bf16 is the identity on the extended reals), accumulating into
  zero, adds the bias along every row and clamps below at zero: the hidden layer of the block. The
  second does the same two products and the bias, then along each row takes the maximum, subtracts
  it, and subtracts the logarithm of the row sum of the exponentials: the output layer of the block.

  Every step is read at an index `(p, q)`. A product accumulated into zero is the sum over the
  contracted coordinate; the bias `[N]`, cast to `[1, N]` and spread down the rows, is `b[q]`; a row
  reduction `[5000, 40] → [5000]`, cast to a column `[5000, 1]` and spread along the rows, is at
  `(p, q)` the reduction of row `p`, whatever `q`.
-/
import proofs.«138470_j38628935860964_1_alg».proof.Proof.Gen.KernelIdeal.Skeleton
import proofs.«138470_j38628935860964_1_alg».proof.Proof.Spec
import proofs.«138470_j38628935860964_1_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The column forms of a kept reduced axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows of a `[5000, 40]` array -/

/-- The source index over row `p` with column `k` inserted is `(p, k)`. -/
theorem lift_row (p : Fin 5000) (k : Fin 40) :
    reduces_S5000x40_S5000.lift (ix1 p) k = ix2 p k := by
  funext c
  apply Fin.ext
  match c with
  | ⟨0, _⟩ => rfl
  | ⟨1, _⟩ => rfl

/-- The maximum along each row, folded from `-∞`, read at row `p`. -/
theorem rowMax_read (z : FVec Ideal S5000x40 .f32) (hφ : FKind.Formats .f32)
    (hacc : (0xFF800000#32 : BitVec 32) = FKind.maximumf.neutral .f32 hφ) (p : Fin 5000) :
    multiReduction (F := Ideal) .maximumf [1] S5000 z 0xFF800000#32 reduces_S5000x40_S5000 hφ hacc (ix1 p)
      = Cert.Sage.rowMax fun j : Fin 40 => z (ix2 p j) := by
  refine (Ideal.multiReduction_maximumf_single z 0xFF800000#32 reduces_S5000x40_S5000 hφ hacc (ix1 p)).trans ?_
  unfold Cert.Sage.rowMax
  refine congrArg (Finset.fold max (Ideal.ofBits .f32 0xFF800000#32) · Finset.univ) ?_
  funext k
  exact congrArg z (lift_row p k)

/-- The sum along each row, read at row `p`. -/
theorem rowSum_read (z : FVec Ideal S5000x40 .f32) (hφ : FKind.Formats .f32)
    (hacc : (0x00000000#32 : BitVec 32) = FKind.add.neutral .f32 hφ) (p : Fin 5000) :
    multiReduction (F := Ideal) .add [1] S5000 z 0x00000000#32 reduces_S5000x40_S5000 hφ hacc (ix1 p)
      = ∑ j : Fin 40, z (ix2 p j) := by
  refine (Ideal.multiReduction_add_single z 0x00000000#32 reduces_S5000x40_S5000 hφ hacc (ix1 p)).trans ?_
  exact Finset.sum_congr rfl fun k _ => congrArg z (lift_row p k)

/-! ## The two bodies -/

/-- The first body's stored value is the hidden layer of its blocks. -/
theorem pay_hidden (a x : Vec Ideal S5000x128 .f32) (wl wr : Vec Ideal S128x128 .f32) (b : Vec Ideal S128 .f32) :
    k0_pay1 (F := Ideal) a x wl wr b = Cert.Sage.hidden a x wl wr b := by
  funext i
  obtain ⟨p, q, rfl⟩ : ∃ (p : Fin 5000) (q : Fin 128), i = ix2 p q := ⟨i 0, i 1, eq_ix2 i⟩
  rw [Cert.Sage.hidden_ix2]
  unfold k0_pay1
  rw [shapeCast_self a shapeCasts_S5000x128_S5000x128]
  refine congrArg₂ max ?_ rfl
  unfold Cert.Sage.affine
  refine congrArg₂ (· + ·) (congrArg₂ (· + ·) ?_ ?_) ?_
  · exact Dot2.matmul_zero_mm_apply dot_S5000x128_S128x128_S5000x128_1_0_0_1_n_n_wf none
      (truncf .bf16 a bitsLt_bf16_f32) (truncf .bf16 wl bitsLt_bf16_f32) p q
  · refine (broadcastTo_1b_ab_apply _ broadcasts_S1x128_S5000x128 p q).trans ?_
    exact shapeCast_a_1a_apply b shapeCasts_S128_S1x128 0 q
  · exact Dot2.matmul_zero_mm_apply dot_S5000x128_S128x128_S5000x128_1_0_0_1_n_n_wf none
      (truncf .bf16 x bitsLt_bf16_f32) (truncf .bf16 wr bitsLt_bf16_f32) p q

/-- A `[5000]` array put back as a column and spread along the rows reads, at `(p, q)`, its entry `p`. -/
theorem column_read (v : FVec Ideal S5000 .f32) (p : Fin 5000) (q : Fin 40) :
    broadcastTo S5000x40 (shapeCast S5000x1 v shapeCasts_S5000_S5000x1) broadcasts_S5000x1_S5000x40 (ix2 p q)
      = v (ix1 p) :=
  (broadcastTo_a1_ab_apply _ broadcasts_S5000x1_S5000x40 p q).trans
    (shapeCast_a_a1_apply v shapeCasts_S5000_S5000x1 p 0)

/-- The row normalisation the second body ends with, read at `(p, q)`: with `μ` the maximum of row
    `p` of `z`, it is `(z[p, q] - μ) - log (∑ j, exp (z[p, j] - μ))`, the logarithm of the softmax of
    that row at `q`. -/
theorem tail_apply (z : FVec Ideal S5000x40 .f32) (hφ : FKind.Formats .f32)
    (hmax : (0xFF800000#32 : BitVec 32) = FKind.maximumf.neutral .f32 hφ)
    (hadd : (0x00000000#32 : BitVec 32) = FKind.add.neutral .f32 hφ) (p : Fin 5000) (q : Fin 40) :
    subf
        (subf z (broadcastTo S5000x40 (shapeCast S5000x1
          (multiReduction (F := Ideal) .maximumf [1] S5000 z 0xFF800000#32 reduces_S5000x40_S5000 hφ hmax)
          shapeCasts_S5000_S5000x1) broadcasts_S5000x1_S5000x40))
        (broadcastTo S5000x40 (log (shapeCast S5000x1
          (multiReduction (F := Ideal) .add [1] S5000
            (exp (subf z (broadcastTo S5000x40 (shapeCast S5000x1
              (multiReduction (F := Ideal) .maximumf [1] S5000 z 0xFF800000#32 reduces_S5000x40_S5000 hφ hmax)
              shapeCasts_S5000_S5000x1) broadcasts_S5000x1_S5000x40)))
            0x00000000#32 reduces_S5000x40_S5000 hφ hadd)
          shapeCasts_S5000_S5000x1)) broadcasts_S5000x1_S5000x40)
        (ix2 p q)
      = Cert.Sage.logSoftmaxRow (fun j => z (ix2 p j)) q := by
  -- the shifted entry of row `p` at any column
  have hs : ∀ j : Fin 40,
      subf z (broadcastTo S5000x40 (shapeCast S5000x1
          (multiReduction (F := Ideal) .maximumf [1] S5000 z 0xFF800000#32 reduces_S5000x40_S5000 hφ hmax)
          shapeCasts_S5000_S5000x1) broadcasts_S5000x1_S5000x40) (ix2 p j)
        = z (ix2 p j) - Cert.Sage.rowMax fun j => z (ix2 p j) := fun j =>
    congrArg (z (ix2 p j) - ·) ((column_read _ p j).trans (rowMax_read z hφ hmax p))
  unfold Cert.Sage.logSoftmaxRow
  refine congrArg₂ (· - ·) (hs q) ?_
  refine (broadcastTo_a1_ab_apply _ broadcasts_S5000x1_S5000x40 p q).trans ?_
  refine congrArg Ideal.log ?_
  refine (shapeCast_a_a1_apply _ shapeCasts_S5000_S5000x1 p 0).trans ?_
  refine (rowSum_read _ hφ hadd p).trans ?_
  exact Finset.sum_congr rfl fun j _ => congrArg Ideal.exp (hs j)

/-- The second body's stored value is the output layer of its blocks. -/
theorem pay_output (a h : Vec Ideal S5000x128 .f32) (wl wr : Vec Ideal S128x40 .f32) (b : Vec Ideal S40 .f32) :
    k1_pay1 (F := Ideal) a h wl wr b = Cert.Sage.output a h wl wr b := by
  funext i
  obtain ⟨p, q, rfl⟩ : ∃ (p : Fin 5000) (q : Fin 40), i = ix2 p q := ⟨i 0, i 1, eq_ix2 i⟩
  rw [Cert.Sage.output_ix2]
  unfold k1_pay1
  rw [shapeCast_self a shapeCasts_S5000x128_S5000x128, shapeCast_self h shapeCasts_S5000x128_S5000x128]
  refine (tail_apply _ _ _ _ p q).trans ?_
  refine congrArg (Cert.Sage.logSoftmaxRow · q) (funext fun j => ?_)
  unfold Cert.Sage.affine
  refine congrArg₂ (· + ·) (congrArg₂ (· + ·) ?_ ?_) ?_
  · exact Dot2.matmul_zero_mm_apply dot_S5000x128_S128x40_S5000x40_1_0_0_1_n_n_wf none
      (truncf .bf16 a bitsLt_bf16_f32) (truncf .bf16 wl bitsLt_bf16_f32) p j
  · refine (broadcastTo_1b_ab_apply _ broadcasts_S1x40_S5000x40 p j).trans ?_
    exact shapeCast_a_1a_apply b shapeCasts_S40_S1x40 0 j
  · exact Dot2.matmul_zero_mm_apply dot_S5000x128_S128x40_S5000x40_1_0_0_1_n_n_wf none
      (truncf .bf16 h bitsLt_bf16_f32) (truncf .bf16 wr bitsLt_bf16_f32) p j

end Cert.KernelIdeal.Payload

end
-- ==== Proof.Blocks.lean ====
/-
  From what one grid point stores to the whole array.

  Each of the two kernels walks a grid of twenty points. At point `t` it is handed rows
  `5000 t … 5000 t + 4999` of its two row-aligned inputs, the two weight matrices and the bias whole,
  and stores rows `5000 t … 5000 t + 4999` of its result. A row of either layer depends on the two
  row-aligned inputs through that row alone, so what point `t` stores is that block of rows of the
  layer of the WHOLE arrays; the twenty blocks tile the hundred thousand rows, so the array the
  kernel leaves is the layer of the whole arrays.
-/
import proofs.«138470_j38628935860964_1_alg».proof.Proof.Gen.KernelIdeal.Frame
import proofs.«138470_j38628935860964_1_alg».proof.Proof.Payload
import proofs.«138470_j38628935860964_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset of a rank-two rectangle, however it is spelt. -/
theorem zero2 : (![0, 0] : Fin 2 → Nat) = fun _ => 0 := funext fun a => by fin_cases a <;> rfl

/-- The zero offset of a rank-one rectangle. -/
theorem zero1 : (![0] : Fin 1 → Nat) = fun _ => 0 := funext fun a => by fin_cases a; rfl

/-! ## The hidden layer -/

/-- Where each window's block sits at point `t`: the row-aligned windows (the two inputs and the
    result) at block row `t`, the weights and the bias at the origin. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- There are twenty points. -/
theorem point_lt0 (t : Fin cfg0.N) : t.val < 20 := lt_of_lt_of_eq t.isLt N_0

/-- Row `p` of the neighbourhood means' block at point `t` is row `5000 t + p` of the array. -/
theorem row0_0 (t : Fin cfg0.N) (p : Fin 5000) (k : Fin 128) (h : t.val * 5000 + p.val < 100000) :
    ((cfg0.win 0).blk t).view.emb (ix2 p k) = (ix2 (⟨t.val * 5000 + p.val, h⟩ : Fin 100000) k : S100000x128.Idx) := by
  obtain ⟨e0, e1, -⟩ := blockIndex0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row `p` of the nodes' own features' block at point `t` is row `5000 t + p` of the array. -/
theorem row0_1 (t : Fin cfg0.N) (p : Fin 5000) (k : Fin 128) (h : t.val * 5000 + p.val < 100000) :
    ((cfg0.win 1).blk t).view.emb (ix2 p k) = (ix2 (⟨t.val * 5000 + p.val, h⟩ : Fin 100000) k : S100000x128.Idx) := by
  obtain ⟨-, -, e0, e1, -⟩ := blockIndex0 t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- Row `p` of the result's block at point `t` is row `5000 t + p` of the array. -/
theorem row0_5 (t : Fin cfg0.N) (p : Fin 5000) (q : Fin 128) (h : t.val * 5000 + p.val < 100000) :
    ((cfg0.win 5).blk t).view.emb (ix2 p q) = (ix2 (⟨t.val * 5000 + p.val, h⟩ : Fin 100000) q : S100000x128.Idx) := by
  obtain ⟨-, -, -, -, -, -, -, -, -, e0, e1⟩ := blockIndex0 t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- The first weight matrix's block is the whole matrix, at every point. -/
theorem whole0_2 (t : Fin cfg0.N) (y : S128x128.Idx) : ((cfg0.win 2).blk t).view.emb y = y := by
  obtain ⟨-, -, -, -, e0, e1, -⟩ := blockIndex0 t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias's block is the whole bias. -/
theorem whole0_3 (t : Fin cfg0.N) (y : S128.Idx) : ((cfg0.win 3).blk t).view.emb y = y := by
  obtain ⟨-, -, -, -, -, -, e0, -⟩ := blockIndex0 t
  funext a; apply Fin.ext
  match a with
  | ⟨0, _⟩ => show win0_3.index t (0 : Fin 1) * 128 + 1 * (y 0).val = (y 0).val; omega

/-- The second weight matrix's block is the whole matrix. -/
theorem whole0_4 (t : Fin cfg0.N) (y : S128x128.Idx) : ((cfg0.win 4).blk t).view.emb y = y := by
  obtain ⟨-, -, -, -, -, -, -, e0, e1, -⟩ := blockIndex0 t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The blocks the first body is handed, as arrays of extended reals of their literal shapes. -/
abbrev aggBlk0 (c : Dev nD) (t : Fin cfg0.N) : Vec Ideal S5000x128 .f32 := iblk0 V c 0 t
abbrev ownBlk0 (c : Dev nD) (t : Fin cfg0.N) : Vec Ideal S5000x128 .f32 := iblk0 V c 1 t
abbrev wlBlk0 (c : Dev nD) (t : Fin cfg0.N) : Vec Ideal S128x128 .f32 := iblk0 V c 2 t
abbrev biasBlk0 (c : Dev nD) (t : Fin cfg0.N) : Vec Ideal S128 .f32 := iblk0 V c 3 t
abbrev wrBlk0 (c : Dev nD) (t : Fin cfg0.N) : Vec Ideal S128x128 .f32 := iblk0 V c 4 t

/-- The arrays the first kernel reads, likewise. -/
abbrev aggArr0 (c : Dev nD) : Vec Ideal S100000x128 .f32 := V c main_v22
abbrev ownArr0 (c : Dev nD) : Vec Ideal S100000x128 .f32 := V c main_arg0
abbrev wlArr0 (c : Dev nD) : Vec Ideal S128x128 .f32 := V c main_arg2
abbrev biasArr0 (c : Dev nD) : Vec Ideal S128 .f32 := V c main_arg3
abbrev wrArr0 (c : Dev nD) : Vec Ideal S128x128 .f32 := V c main_arg4

theorem aggBlk0_row (c : Dev nD) (t : Fin cfg0.N) (p : Fin 5000) (k : Fin 128) (h : t.val * 5000 + p.val < 100000) :
    aggBlk0 V c t (ix2 p k) = aggArr0 V c (ix2 (⟨t.val * 5000 + p.val, h⟩ : Fin 100000) k) := by
  show aggArr0 V c (((cfg0.win 0).blk t).view.emb (ix2 p k)) = _
  rw [row0_0 t p k h]

theorem ownBlk0_row (c : Dev nD) (t : Fin cfg0.N) (p : Fin 5000) (k : Fin 128) (h : t.val * 5000 + p.val < 100000) :
    ownBlk0 V c t (ix2 p k) = ownArr0 V c (ix2 (⟨t.val * 5000 + p.val, h⟩ : Fin 100000) k) := by
  show ownArr0 V c (((cfg0.win 1).blk t).view.emb (ix2 p k)) = _
  rw [row0_1 t p k h]

theorem wlBlk0_eq (c : Dev nD) (t : Fin cfg0.N) : wlBlk0 V c t = wlArr0 V c := by
  funext y
  show wlArr0 V c (((cfg0.win 2).blk t).view.emb y) = _
  rw [whole0_2 t y]

theorem biasBlk0_eq (c : Dev nD) (t : Fin cfg0.N) : biasBlk0 V c t = biasArr0 V c := by
  funext y
  show biasArr0 V c (((cfg0.win 3).blk t).view.emb y) = _
  rw [whole0_3 t y]

theorem wrBlk0_eq (c : Dev nD) (t : Fin cfg0.N) : wrBlk0 V c t = wrArr0 V c := by
  funext y
  show wrArr0 V c (((cfg0.win 4).blk t).view.emb y) = _
  rw [whole0_4 t y]

/-- WHAT POINT `t` WRITES BACK is block `t` of the hidden layer of the whole arrays. -/
theorem flushed0 (c : Dev nD) (t : Fin cfg0.N) :
    (dat0 (F := Ideal) V c).flushed 5 t = ((cfg0.win 5).blk t).view.read (Elt Ideal)
      (Cert.Sage.hidden (V c main_v22) (V c main_arg0) (V c main_arg2) (V c main_arg4) (V c main_arg3)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  rw [Payload.pay_hidden]
  funext j
  obtain ⟨p, q, rfl⟩ : ∃ (p : Fin 5000) (q : Fin 128), j = ix2 p q := ⟨j 0, j 1, eq_ix2 j⟩
  have ht : t.val < 20 := point_lt0 t
  have h : t.val * 5000 + p.val < 100000 := by have := p.isLt; omega
  show Cert.Sage.hidden (M := 5000) (K := 128) (N := 128) (aggBlk0 V c t) (ownBlk0 V c t) (wlBlk0 V c t) (wrBlk0 V c t) (biasBlk0 V c t) (ix2 p q)
    = Cert.Sage.hidden (M := 100000) (K := 128) (N := 128) (aggArr0 V c) (ownArr0 V c) (wlArr0 V c) (wrArr0 V c) (biasArr0 V c) (((cfg0.win 5).blk t).view.emb (ix2 p q))
  rw [row0_5 t p q h, wlBlk0_eq V c t, biasBlk0_eq V c t, wrBlk0_eq V c t]
  exact Cert.Sage.hidden_congr (aggBlk0 V c t) (ownBlk0 V c t) (aggArr0 V c) (ownArr0 V c) (wlArr0 V c) (wrArr0 V c) (biasArr0 V c)
    p ⟨t.val * 5000 + p.val, h⟩ q (fun k => aggBlk0_row V c t p k h) (fun k => ownBlk0_row V c t p k h)

/-- An index of the result is in point `t`'s block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v23).slice (win0_5.rect t)).set ↔ _
  rw [View.set_slice_whole, Rect.mem_set_unit]
  exact Iff.rfl

/-- Twenty blocks of five thousand rows tile the hundred thousand: row `r` lies in block `r / 5000`,
    and every point writes its block back. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < cfg0.N := lt_of_lt_of_eq (by omega : (i 0).val / 5000 < 20) N_0.symm
  obtain ⟨-, -, -, -, -, -, -, -, -, e0, e1⟩ := blockIndex0 ⟨(i 0).val / 5000, hlt⟩
  have e0' : win0_5.index ⟨(i 0).val / 5000, hlt⟩ (0 : Fin 2) = (i 0).val / 5000 := e0
  refine ⟨⟨(i 0).val / 5000, hlt⟩, flush0_5 _, ?_⟩
  rw [mem_block0]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    omega

/-- THE ARRAY the first kernel leaves is the hidden layer of the arrays it was entered with. -/
theorem region0_array (c : Dev nD) :
    (dat0 (F := Ideal) V c).arrAt 5 cfg0.N
      = Cert.Sage.hidden (V c main_v22) (V c main_arg0) (V c main_arg2) (V c main_arg4) (V c main_arg3) :=
  (dat0 V c).arrAt_eq_of_cover 5
    (Cert.Sage.hidden (V c main_v22) (V c main_arg0) (V c main_arg2) (V c main_arg4) (V c main_arg3))
    (fun t _ => flushed0 V c t) cover0

/-! ## The output layer -/

/-- Where each window's block sits at point `t` of the second kernel's grid. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- There are twenty points. -/
theorem point_lt1 (t : Fin cfg1.N) : t.val < 20 := lt_of_lt_of_eq t.isLt N_1

/-- Row `p` of the neighbourhood means' block at point `t` is row `5000 t + p` of the array. -/
theorem row1_0 (t : Fin cfg1.N) (p : Fin 5000) (k : Fin 128) (h : t.val * 5000 + p.val < 100000) :
    ((cfg1.win 0).blk t).view.emb (ix2 p k) = (ix2 (⟨t.val * 5000 + p.val, h⟩ : Fin 100000) k : S100000x128.Idx) := by
  obtain ⟨e0, e1, -⟩ := blockIndex1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row `p` of the hidden features' block at point `t` is row `5000 t + p` of the array. -/
theorem row1_1 (t : Fin cfg1.N) (p : Fin 5000) (k : Fin 128) (h : t.val * 5000 + p.val < 100000) :
    ((cfg1.win 1).blk t).view.emb (ix2 p k) = (ix2 (⟨t.val * 5000 + p.val, h⟩ : Fin 100000) k : S100000x128.Idx) := by
  obtain ⟨-, -, e0, e1, -⟩ := blockIndex1 t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Row `p` of the result's block at point `t` is row `5000 t + p` of the array. -/
theorem row1_5 (t : Fin cfg1.N) (p : Fin 5000) (q : Fin 40) (h : t.val * 5000 + p.val < 100000) :
    ((cfg1.win 5).blk t).view.emb (ix2 p q) = (ix2 (⟨t.val * 5000 + p.val, h⟩ : Fin 100000) q : S100000x40.Idx) := by
  obtain ⟨-, -, -, -, -, -, -, -, -, e0, e1⟩ := blockIndex1 t
  funext a; apply Fin.ext
  match a with
  | ⟨0, _⟩ => show win1_5.index t (0 : Fin 2) * 5000 + 1 * p.val = t.val * 5000 + p.val; omega
  | ⟨1, _⟩ => show win1_5.index t (1 : Fin 2) * 40 + 1 * q.val = q.val; omega

/-- The first weight matrix's block is the whole matrix, at every point. -/
theorem whole1_2 (t : Fin cfg1.N) (y : S128x40.Idx) : ((cfg1.win 2).blk t).view.emb y = y := by
  obtain ⟨-, -, -, -, e0, e1, -⟩ := blockIndex1 t
  funext a; apply Fin.ext
  match a with
  | ⟨0, _⟩ => show win1_2.index t (0 : Fin 2) * 128 + 1 * (y 0).val = (y 0).val; omega
  | ⟨1, _⟩ => show win1_2.index t (1 : Fin 2) * 40 + 1 * (y 1).val = (y 1).val; omega

/-- The bias's block is the whole bias. -/
theorem whole1_3 (t : Fin cfg1.N) (y : S40.Idx) : ((cfg1.win 3).blk t).view.emb y = y := by
  obtain ⟨-, -, -, -, -, -, e0, -⟩ := blockIndex1 t
  funext a; apply Fin.ext
  match a with
  | ⟨0, _⟩ => show win1_3.index t (0 : Fin 1) * 40 + 1 * (y 0).val = (y 0).val; omega

/-- The second weight matrix's block is the whole matrix. -/
theorem whole1_4 (t : Fin cfg1.N) (y : S128x40.Idx) : ((cfg1.win 4).blk t).view.emb y = y := by
  obtain ⟨-, -, -, -, -, -, -, e0, e1, -⟩ := blockIndex1 t
  funext a; apply Fin.ext
  match a with
  | ⟨0, _⟩ => show win1_4.index t (0 : Fin 2) * 128 + 1 * (y 0).val = (y 0).val; omega
  | ⟨1, _⟩ => show win1_4.index t (1 : Fin 2) * 40 + 1 * (y 1).val = (y 1).val; omega

/-- The blocks the second body is handed, as arrays of extended reals of their literal shapes. -/
abbrev aggBlk1 (c : Dev nD) (t : Fin cfg1.N) : Vec Ideal S5000x128 .f32 := iblk1 V c 0 t
abbrev hidBlk1 (c : Dev nD) (t : Fin cfg1.N) : Vec Ideal S5000x128 .f32 := iblk1 V c 1 t
abbrev wlBlk1 (c : Dev nD) (t : Fin cfg1.N) : Vec Ideal S128x40 .f32 := iblk1 V c 2 t
abbrev biasBlk1 (c : Dev nD) (t : Fin cfg1.N) : Vec Ideal S40 .f32 := iblk1 V c 3 t
abbrev wrBlk1 (c : Dev nD) (t : Fin cfg1.N) : Vec Ideal S128x40 .f32 := iblk1 V c 4 t

/-- The arrays the second kernel reads, likewise. -/
abbrev aggArr1 (c : Dev nD) : Vec Ideal S100000x128 .f32 := V c main_v42
abbrev hidArr1 (c : Dev nD) : Vec Ideal S100000x128 .f32 := V c main_v23
abbrev wlArr1 (c : Dev nD) : Vec Ideal S128x40 .f32 := V c main_arg5
abbrev biasArr1 (c : Dev nD) : Vec Ideal S40 .f32 := V c main_arg6
abbrev wrArr1 (c : Dev nD) : Vec Ideal S128x40 .f32 := V c main_arg7

theorem aggBlk1_row (c : Dev nD) (t : Fin cfg1.N) (p : Fin 5000) (k : Fin 128) (h : t.val * 5000 + p.val < 100000) :
    aggBlk1 V c t (ix2 p k) = aggArr1 V c (ix2 (⟨t.val * 5000 + p.val, h⟩ : Fin 100000) k) := by
  show aggArr1 V c (((cfg1.win 0).blk t).view.emb (ix2 p k)) = _
  rw [row1_0 t p k h]

theorem hidBlk1_row (c : Dev nD) (t : Fin cfg1.N) (p : Fin 5000) (k : Fin 128) (h : t.val * 5000 + p.val < 100000) :
    hidBlk1 V c t (ix2 p k) = hidArr1 V c (ix2 (⟨t.val * 5000 + p.val, h⟩ : Fin 100000) k) := by
  show hidArr1 V c (((cfg1.win 1).blk t).view.emb (ix2 p k)) = _
  rw [row1_1 t p k h]

theorem wlBlk1_eq (c : Dev nD) (t : Fin cfg1.N) : wlBlk1 V c t = wlArr1 V c := by
  funext y
  show wlArr1 V c (((cfg1.win 2).blk t).view.emb y) = _
  rw [whole1_2 t y]

theorem biasBlk1_eq (c : Dev nD) (t : Fin cfg1.N) : biasBlk1 V c t = biasArr1 V c := by
  funext y
  show biasArr1 V c (((cfg1.win 3).blk t).view.emb y) = _
  rw [whole1_3 t y]

theorem wrBlk1_eq (c : Dev nD) (t : Fin cfg1.N) : wrBlk1 V c t = wrArr1 V c := by
  funext y
  show wrArr1 V c (((cfg1.win 4).blk t).view.emb y) = _
  rw [whole1_4 t y]

/-- WHAT POINT `t` WRITES BACK is block `t` of the output layer of the whole arrays. -/
theorem flushed1 (c : Dev nD) (t : Fin cfg1.N) :
    (dat1 (F := Ideal) V c).flushed 5 t = ((cfg1.win 5).blk t).view.read (Elt Ideal)
      (Cert.Sage.output (V c main_v42) (V c main_v23) (V c main_arg5) (V c main_arg7) (V c main_arg6)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x40) zero2, View.ld_unit_zero (S := S40) zero1]
  rw [Payload.pay_output]
  funext j
  obtain ⟨p, q, rfl⟩ : ∃ (p : Fin 5000) (q : Fin 40), j = ix2 p q := ⟨j 0, j 1, eq_ix2 j⟩
  have ht : t.val < 20 := point_lt1 t
  have h : t.val * 5000 + p.val < 100000 := by have := p.isLt; omega
  show Cert.Sage.output (M := 5000) (K := 128) (N := 40) (aggBlk1 V c t) (hidBlk1 V c t) (wlBlk1 V c t) (wrBlk1 V c t) (biasBlk1 V c t) (ix2 p q)
    = Cert.Sage.output (M := 100000) (K := 128) (N := 40) (aggArr1 V c) (hidArr1 V c) (wlArr1 V c) (wrArr1 V c) (biasArr1 V c) (((cfg1.win 5).blk t).view.emb (ix2 p q))
  rw [row1_5 t p q h, wlBlk1_eq V c t, biasBlk1_eq V c t, wrBlk1_eq V c t]
  exact Cert.Sage.output_congr (aggBlk1 V c t) (hidBlk1 V c t) (aggArr1 V c) (hidArr1 V c) (wlArr1 V c) (wrArr1 V c) (biasArr1 V c)
    p ⟨t.val * 5000 + p.val, h⟩ q (fun k => aggBlk1_row V c t p k h) (fun k => hidBlk1_row V c t p k h)

/-- An index of the result is in point `t`'s block iff each coordinate is in the block's range on its axis. -/
theorem mem_block1 (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v43).slice (win1_5.rect t)).set ↔ _
  rw [View.set_slice_whole, Rect.mem_set_unit]
  exact Iff.rfl

/-- Twenty blocks of five thousand rows tile the hundred thousand: row `r` lies in block `r / 5000`,
    and every point writes its block back. -/
theorem cover1 (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hlt : (i 0).val / 5000 < cfg1.N := lt_of_lt_of_eq (by omega : (i 0).val / 5000 < 20) N_1.symm
  obtain ⟨-, -, -, -, -, -, -, -, -, e0, e1⟩ := blockIndex1 ⟨(i 0).val / 5000, hlt⟩
  have e0' : win1_5.index ⟨(i 0).val / 5000, hlt⟩ (0 : Fin 2) = (i 0).val / 5000 := e0
  refine ⟨⟨(i 0).val / 5000, hlt⟩, flush1_5 _, ?_⟩
  rw [mem_block1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    omega
  | ⟨1, _⟩ =>
    show win1_5.index ⟨(i 0).val / 5000, hlt⟩ (1 : Fin 2) * 40 ≤ (i 1).val
      ∧ (i 1).val < win1_5.index ⟨(i 0).val / 5000, hlt⟩ (1 : Fin 2) * 40 + 40
    omega

/-- THE ARRAY the second kernel leaves is the output layer of the arrays it was entered with. -/
theorem region1_array (c : Dev nD) :
    (dat1 (F := Ideal) V c).arrAt 5 cfg1.N
      = Cert.Sage.output (V c main_v42) (V c main_v23) (V c main_arg5) (V c main_arg7) (V c main_arg6) :=
  (dat1 V c).arrAt_eq_of_cover 5
    (Cert.Sage.output (V c main_v42) (V c main_v23) (V c main_arg5) (V c main_arg7) (V c main_arg6))
    (fun t _ => flushed1 V c t) cover1

end Cert.KernelIdeal.Blocks

end
-- ==== Proof.KernelValue.lean ====
/-
  The kernel program's result as one function of its arguments.

  The program runs a stretch of host operations, a region, a second stretch, a second region. The
  contents of the buffers at each boundary are a fold from the launch memory; read at the buffers that
  matter: the first stretch leaves the mean aggregation of the node features and the edges' sources
  and destinations; the first region leaves the hidden layer of what it finds (every block of rows of
  the result is the hidden layer of the same rows of its inputs, and the blocks tile the array); the
  second stretch leaves the mean aggregation of the hidden features over the same edges; the second
  region leaves the output layer of what it finds. No stretch and no region writes an argument.
-/
import proofs.«138470_j38628935860964_1_alg».proof.Proof.KernelRun
import proofs.«138470_j38628935860964_1_alg».proof.Proof.KHost
import proofs.«138470_j38628935860964_1_alg».proof.Proof.Blocks
import proofs.«138470_j38628935860964_1_alg».proof.Proof.Spec

set_option maxRecDepth 16384

noncomputable section

namespace Cert.KernelIdeal.Whole

open Cert.KernelIdeal Cert.KernelIdeal.Gen Cert.KernelIdeal.Stages Cert.KernelIdeal.HostStretch
open Idealize.ShloMosaic Idealize.ShloMosaic.TcCoe Idealize.SL.Sem

/-- The kernel program's result as one function of its eight arguments: aggregate the features, the
    hidden layer, aggregate the hidden features over the same edges, the output layer. -/
def wholeK (x : FVec Ideal S100000x128 .f32) (e : IVec S2x1600000 32) (w1l : FVec Ideal S128x128 .f32) (b1 : FVec Ideal S128 .f32)
    (w1r : FVec Ideal S128x128 .f32) (w2l : FVec Ideal S128x40 .f32) (b2 : FVec Ideal S40 .f32) (w2r : FVec Ideal S128x40 .f32) :
    FVec Ideal S100000x40 .f32 :=
  Cert.Sage.output
    (aggT (F := Ideal) (Cert.Sage.hidden (aggT (F := Ideal) x (srcOf e) (dstOf e)) x w1l w1r b1) (srcOf e) (dstOf e))
    (Cert.Sage.hidden (aggT (F := Ideal) x (srcOf e) (dstOf e)) x w1l w1r b1) w2l w2r b2

variable (m : (ℓ : Loc nD τ sig) → Buf (Elt Ideal) ℓ) (ρ : Dev nD → PrngReg)

/-! ## Region 0's entry contents -/

theorem entry0_agg (c : Dev nD) : V1 m ρ c main_v22
    = aggT (F := Ideal) (m ((c.tc : Thread nD τ).loc main_arg0)) (srcOf (m ((c.tc : Thread nD τ).loc main_arg1))) (dstOf (m ((c.tc : Thread nD τ).loc main_arg1))) :=
  host0_v22 (W0 m ρ c)
theorem entry0_arg0 (c : Dev nD) : V1 m ρ c main_arg0 = m ((c.tc : Thread nD τ).loc main_arg0) := host0_arg0 (W0 m ρ c)
theorem entry0_arg2 (c : Dev nD) : V1 m ρ c main_arg2 = m ((c.tc : Thread nD τ).loc main_arg2) := host0_arg2 (W0 m ρ c)
theorem entry0_arg3 (c : Dev nD) : V1 m ρ c main_arg3 = m ((c.tc : Thread nD τ).loc main_arg3) := host0_arg3 (W0 m ρ c)
theorem entry0_arg4 (c : Dev nD) : V1 m ρ c main_arg4 = m ((c.tc : Thread nD τ).loc main_arg4) := host0_arg4 (W0 m ρ c)

/-! ## Region 0's exit contents -/

/-- The hidden features the first region leaves: the hidden layer of the aggregated features. -/
theorem exit0_hidden (c : Dev nD) : W2 m ρ c (Proc.devRef .tc main_v23)
    = Cert.Sage.hidden (aggT (F := Ideal) (m ((c.tc : Thread nD τ).loc main_arg0)) (srcOf (m ((c.tc : Thread nD τ).loc main_arg1))) (dstOf (m ((c.tc : Thread nD τ).loc main_arg1))))
        (m ((c.tc : Thread nD τ).loc main_arg0)) (m ((c.tc : Thread nD τ).loc main_arg2)) (m ((c.tc : Thread nD τ).loc main_arg4)) (m ((c.tc : Thread nD τ).loc main_arg3)) := by
  refine (W2_arr m ρ c 5).trans ?_
  rw [Cert.KernelIdeal.Blocks.region0_array (V1 m ρ) c, entry0_agg, entry0_arg0, entry0_arg2, entry0_arg3, entry0_arg4]

/-- The first region writes neither the edges' sources … -/
theorem exit0_src (c : Dev nD) : W2 m ρ c (Proc.devRef .tc main_v1) = srcOf (m ((c.tc : Thread nD τ).loc main_arg1)) :=
  (W2_of_ne m ρ c main_v1 (by decide)).trans (host0_v1 (W0 m ρ c))
/-- … nor their destinations, … -/
theorem exit0_dst (c : Dev nD) : W2 m ρ c (Proc.devRef .tc main_v3) = dstOf (m ((c.tc : Thread nD τ).loc main_arg1)) :=
  (W2_of_ne m ρ c main_v3 (by decide)).trans (host0_v3 (W0 m ρ c))
/-- … nor the output layer's weights and bias. -/
theorem exit0_arg5 (c : Dev nD) : W2 m ρ c (Proc.devRef .tc main_arg5) = m ((c.tc : Thread nD τ).loc main_arg5) :=
  (W2_of_ne m ρ c main_arg5 (by decide)).trans (host0_arg5 (W0 m ρ c))
theorem exit0_arg6 (c : Dev nD) : W2 m ρ c (Proc.devRef .tc main_arg6) = m ((c.tc : Thread nD τ).loc main_arg6) :=
  (W2_of_ne m ρ c main_arg6 (by decide)).trans (host0_arg6 (W0 m ρ c))
theorem exit0_arg7 (c : Dev nD) : W2 m ρ c (Proc.devRef .tc main_arg7) = m ((c.tc : Thread nD τ).loc main_arg7) :=
  (W2_of_ne m ρ c main_arg7 (by decide)).trans (host0_arg7 (W0 m ρ c))

/-! ## Region 1's entry contents -/

theorem entry1_agg (c : Dev nD) : V3 m ρ c main_v42
    = aggT (F := Ideal) (W2 m ρ c (Proc.devRef .tc main_v23)) (srcOf (m ((c.tc : Thread nD τ).loc main_arg1))) (dstOf (m ((c.tc : Thread nD τ).loc main_arg1))) := by
  refine (host1_v42 (W2 m ρ c)).trans ?_
  rw [exit0_src, exit0_dst]
theorem entry1_hidden (c : Dev nD) : V3 m ρ c main_v23 = W2 m ρ c (Proc.devRef .tc main_v23) := host1_v23 (W2 m ρ c)
theorem entry1_arg5 (c : Dev nD) : V3 m ρ c main_arg5 = m ((c.tc : Thread nD τ).loc main_arg5) := (host1_arg5 (W2 m ρ c)).trans (exit0_arg5 m ρ c)
theorem entry1_arg6 (c : Dev nD) : V3 m ρ c main_arg6 = m ((c.tc : Thread nD τ).loc main_arg6) := (host1_arg6 (W2 m ρ c)).trans (exit0_arg6 m ρ c)
theorem entry1_arg7 (c : Dev nD) : V3 m ρ c main_arg7 = m ((c.tc : Thread nD τ).loc main_arg7) := (host1_arg7 (W2 m ρ c)).trans (exit0_arg7 m ρ c)

/-! ## The result -/

/-- The result buffer at the last boundary: the kernel program's function of its arguments. -/
theorem result_eq (c : Dev nD) : W4 m ρ c (Proc.devRef .tc main_v43)
    = wholeK (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  rw [Cert.KernelIdeal.Blocks.region1_array (V3 m ρ) c, entry1_agg, entry1_hidden, entry1_arg5, entry1_arg6, entry1_arg7, exit0_hidden]
  rfl

/-- The kernel program's run with its result as the function of the arguments: the launch's run, the result buffer's
    last contents read through the fold. -/
theorem kernel_run : θ_run defs (onTc (τ := τ) (main (F := Ideal))) ⟨m, fun _ => 0, ρ⟩ (fun r => ∀ c : Dev nD,
      r.2.mem ((c.tc : Thread nD τ).loc main_v43)
        = wholeK (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Launched.run_result m ρ)

end Cert.KernelIdeal.Whole

end
-- ==== Proof.RStages.lean ====
/-
  The reference program's stages as functions of arrays: the edge list's two rows, the mean
  aggregation over incoming edges, the hidden layer (two products, a bias, a clamp at zero) and the
  output layer (two products, a bias, then the logarithm of the softmax along each row in its
  shifted form).
-/
import proofs.«138470_j38628935860964_1_alg».proof.Proof.Gen.ReferenceIdeal

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The edges' source nodes: row 0 of the `[2, E]` edge list, as a vector of length `E`. -/
def srcOf (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- Mean aggregation over incoming edges: gather the rows of `x` at the sources `s` (a negative index
    wrapped once by the row count), add them up at the destinations `d` from zero, and divide each
    node's sum by its in-degree (the count of edges arriving there, taken at least one). -/
def aggT (x : FVec F S100000x128 .f32) (s d : IVec S1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

/-- The hidden layer as the host computes it: `max ((a · wl + b) + x · wr) 0`, the bias laid along
    every row. -/
def hidR (a x : FVec F S100000x128 .f32) (wl : FVec F S128x128 .f32) (b : FVec F S128 .f32) (wr : FVec F S128x128 .f32) :
    FVec F S100000x128 .f32 :=
  maximumf
    (addf
      (addf (Host.dotGeneral dot_S100000x128_S128x128_S100000x128_1_0_0_1_n_n none a wl)
        (broadcastInDim S100000x128 ![0, 1] bcast_S1x128_S100000x128_0_1 (broadcastInDim S1x128 ![1] bcast_S128_S1x128_1 b)))
      (Host.dotGeneral dot_S100000x128_S128x128_S100000x128_1_0_0_1_n_n none x wr))
    (broadcastInDim S100000x128 ![] bcast_S_S100000x128 (constant S_ .f32 0x00000000#32))

/-- The output layer's scores: `(a · wl + b) + h · wr`. -/
def logitsR (a h : FVec F S100000x128 .f32) (wl : FVec F S128x40 .f32) (b : FVec F S40 .f32) (wr : FVec F S128x40 .f32) :
    FVec F S100000x40 .f32 :=
  addf
    (addf (Host.dotGeneral dot_S100000x128_S128x40_S100000x40_1_0_0_1_n_n none a wl)
      (broadcastInDim S100000x40 ![0, 1] bcast_S1x40_S100000x40_0_1 (broadcastInDim S1x40 ![1] bcast_S40_S1x40_1 b)))
    (Host.dotGeneral dot_S100000x128_S128x40_S100000x40_1_0_0_1_n_n none h wr)

/-- Each row's maximum, from `-∞`, and once more against `-∞`. -/
def rowMaxR (z : FVec F S100000x40 .f32) : FVec F S100000 .f32 :=
  maximumf (broadcastInDim S100000 ![] bcast_S_S100000 (constant S_ .f32 0xFF800000#32))
    (Host.reduce FloatOps.maximumf z (constant S_ .f32 0xFF800000#32) reducesTo_S100000x40_S100000_d1 h_S_)

/-- The scores with their row's maximum taken off. -/
def shiftedR (z : FVec F S100000x40 .f32) : FVec F S100000x40 .f32 :=
  subf z (broadcastInDim S100000x40 ![0, 1] bcast_S100000x1_S100000x40_0_1
    (broadcastInDim S100000x1 ![0] bcast_S100000_S100000x1_0 (rowMaxR z)))

/-- The logarithm of the softmax along each row: the shifted scores less the logarithm of the row sum
    of their exponentials. -/
def lsmR (z : FVec F S100000x40 .f32) : FVec F S100000x40 .f32 :=
  subf (shiftedR z) (broadcastInDim S100000x40 ![0, 1] bcast_S100000x1_S100000x40_0_1
    (Host.log (broadcastInDim S100000x1 ![0] bcast_S100000_S100000x1_0
      (Host.reduceAdd (Host.exp (shiftedR z)) (constant S_ .f32 0x00000000#32) reducesTo_S100000x40_S100000_d1 h_S_))))

/-- The output layer. -/
def outR (a h : FVec F S100000x128 .f32) (wl : FVec F S128x40 .f32) (b : FVec F S40 .f32) (wr : FVec F S128x40 .f32) :
    FVec F S100000x40 .f32 :=
  lsmR (logitsR a h wl b wr)

end Cert.ReferenceIdeal.Stages

end
-- ==== Proof.RefFold.lean ====
/-
  The reference program's run as ONE function of its arguments. The operations of @main are cut into
  four stretches: the first mean aggregation (which also leaves the two rows of the edge list), the
  hidden layer, the second aggregation (of the hidden layer's rows, over the same edges) and the
  output layer. What each stretch leaves in the buffers that later stretches read is one of the
  staged functions of what it found there, and every other buffer it reads is left as it was; the
  four facts compose to the whole: two aggregations and two layers, the hidden layer shared.
-/
import proofs.«138470_j38628935860964_1_alg».proof.Proof.RefRun
import proofs.«138470_j38628935860964_1_alg».proof.Proof.RStages
import Idealize.ShloMosaic.Lib.StableHlo.Run
import Idealize.ShloMosaic.Lib.Pipeline.Frame

noncomputable section

namespace Cert.ReferenceIdeal.Whole

open Cert.ReferenceIdeal Cert.ReferenceIdeal.Gen Cert.ReferenceIdeal.Stages Cert.ReferenceIdeal.Fold Idealize.ShloMosaic Idealize.ShloMosaic.TcCoe Idealize.SL.Sem Idealize.ShloMosaic.StableHlo

variable {F : FTy → Type} [FloatOps F]

/-- The whole reference: aggregate the features, the hidden layer on the aggregate and the features,
    aggregate the hidden rows over the same edges, the output layer on that aggregate and the hidden rows. -/
def wholeR (x : FVec F S100000x128 .f32) (e : IVec S2x1600000 32) (w1l : FVec F S128x128 .f32) (b1 : FVec F S128 .f32)
    (w1r : FVec F S128x128 .f32) (w2l : FVec F S128x40 .f32) (b2 : FVec F S40 .f32) (w2r : FVec F S128x40 .f32) :
    FVec F S100000x40 .f32 :=
  outR (aggT (hidR (aggT x (srcOf e) (dstOf e)) x w1l b1 w1r) (srcOf e) (dstOf e)) (hidR (aggT x (srcOf e) (dstOf e)) x w1l b1 w1r) w2l b2 w2r

/-! ## The four stretches -/

/-- The first 29 operations: the edge list's rows and the first aggregation. -/
def s1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)) ]

/-- The next 9: the hidden layer. -/
def s2 : List (HloOp τ sig (Elt F)) :=
  [ binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v28) (TRef.of (T := ⟨S100000x128, .f32⟩) main_call0_v0) (TRef.of (T := ⟨S100000x128, .f32⟩) main_v29) maximumf ]

/-- The next 25: the second aggregation. -/
def s3 : List (HloOp τ sig (Elt F)) :=
  [ nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v39 main_v47 main_v48 (Host.divf : (⟨S100000x128, .f32⟩ : BufTy).Contents (Elt F) → (⟨S100000x128, .f32⟩ : BufTy).Contents (Elt F) → (⟨S100000x128, .f32⟩ : BufTy).Contents (Elt F)) ]

/-- The last 21: the output layer. -/
def s4 : List (HloOp τ sig (Elt F)) :=
  [ binary main_v48 main_arg5 main_v49 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg6 main_v50 (broadcastInDim S1x40 ![1] bcast_S40_S1x40_1 : (⟨S40, .f32⟩ : BufTy).Contents (Elt F) → (⟨S1x40, .f32⟩ : BufTy).Contents (Elt F)),
    unary main_v50 main_v51 (broadcastInDim S100000x40 ![0, 1] bcast_S1x40_S100000x40_0_1 : (⟨S1x40, .f32⟩ : BufTy).Contents (Elt F) → (⟨S100000x40, .f32⟩ : BufTy).Contents (Elt F)),
    binary main_v49 main_v51 main_v52 (addf : (⟨S100000x40, .f32⟩ : BufTy).Contents (Elt F) → (⟨S100000x40, .f32⟩ : BufTy).Contents (Elt F) → (⟨S100000x40, .f32⟩ : BufTy).Contents (Elt F)),
    binary main_v29 main_arg7 main_v53 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v52 main_v53 main_v54 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

set_option maxRecDepth 8192 in
/-- The operations are the four stretches in order. -/
theorem ops_eq : (ops : List (HloOp τ sig (Elt F))) = s1 ++ s2 ++ s3 ++ s4 := rfl

/-! ### Typed references

A called function's operations move contents between a buffer's own type and the type its typed
reference carries; both moves are the identity, the two types being the same. -/

/-- Contents carried to a typed reference's buffer and back are what they were. -/
theorem ofBuf_toBuf {T : BufTy} (x : TRef sig T) (v : T.Contents (Elt F)) : x.ofBuf (x.toBuf v) = v := by
  simp only [TRef.ofBuf, TRef.toBuf, cast_cast, cast_eq]

/-- The scores' buffer read at its typed reference: the contents themselves. -/
theorem ofBuf_v54 (v : main_v54.ty.Contents (Elt F)) :
    (TRef.of (sig := sig) (T := ⟨S100000x40, .f32⟩) main_v54).ofBuf v = v := rfl

/-- The result buffer written at its typed reference: the contents themselves. -/
theorem toBuf_v55 (v : (⟨S100000x40, .f32⟩ : BufTy).Contents (Elt F)) :
    (TRef.of (sig := sig) (T := ⟨S100000x40, .f32⟩) main_v55).toBuf v = v := rfl

section Stretches

variable (V : Valuation τ sig (Elt F))

/-! ### The first stretch -/

/-- After the first stretch: the sources. -/
theorem s1_v1 : after (s1 (F := F)) V (Proc.devRef .tc main_v1) = srcOf (V (Proc.devRef .tc main_arg1) : IVec S2x1600000 32) := by
  unfold s1; after_results_simp <;> rfl
/-- After the first stretch: the destinations. -/
theorem s1_v3 : after (s1 (F := F)) V (Proc.devRef .tc main_v3) = dstOf (V (Proc.devRef .tc main_arg1) : IVec S2x1600000 32) := by
  unfold s1; after_results_simp <;> rfl
/-- After the first stretch: the features' mean over incoming edges. -/
theorem s1_v22 : after (s1 (F := F)) V (Proc.devRef .tc main_v22)
    = aggT (V (Proc.devRef .tc main_arg0) : FVec F S100000x128 .f32) (srcOf (V (Proc.devRef .tc main_arg1) : IVec S2x1600000 32)) (dstOf (V (Proc.devRef .tc main_arg1) : IVec S2x1600000 32)) := by
  unfold s1; after_results_simp <;> rfl
theorem s1_arg0 : after (s1 (F := F)) V (Proc.devRef .tc main_arg0) = V (Proc.devRef .tc main_arg0) := by
  unfold s1; after_results_simp <;> rfl
theorem s1_arg1 : after (s1 (F := F)) V (Proc.devRef .tc main_arg1) = V (Proc.devRef .tc main_arg1) := by
  unfold s1; after_results_simp <;> rfl
theorem s1_arg2 : after (s1 (F := F)) V (Proc.devRef .tc main_arg2) = V (Proc.devRef .tc main_arg2) := by
  unfold s1; after_results_simp <;> rfl
theorem s1_arg3 : after (s1 (F := F)) V (Proc.devRef .tc main_arg3) = V (Proc.devRef .tc main_arg3) := by
  unfold s1; after_results_simp <;> rfl
theorem s1_arg4 : after (s1 (F := F)) V (Proc.devRef .tc main_arg4) = V (Proc.devRef .tc main_arg4) := by
  unfold s1; after_results_simp <;> rfl
theorem s1_arg5 : after (s1 (F := F)) V (Proc.devRef .tc main_arg5) = V (Proc.devRef .tc main_arg5) := by
  unfold s1; after_results_simp <;> rfl
theorem s1_arg6 : after (s1 (F := F)) V (Proc.devRef .tc main_arg6) = V (Proc.devRef .tc main_arg6) := by
  unfold s1; after_results_simp <;> rfl
theorem s1_arg7 : after (s1 (F := F)) V (Proc.devRef .tc main_arg7) = V (Proc.devRef .tc main_arg7) := by
  unfold s1; after_results_simp <;> rfl

/-! ### The second stretch -/

/-- After the second stretch: the hidden layer of the aggregate it found and the features. -/
theorem s2_v29 : after (s2 (F := F)) V (Proc.devRef .tc main_v29)
    = hidR (V (Proc.devRef .tc main_v22) : FVec F S100000x128 .f32) (V (Proc.devRef .tc main_arg0) : FVec F S100000x128 .f32) (V (Proc.devRef .tc main_arg2) : FVec F S128x128 .f32) (V (Proc.devRef .tc main_arg3) : FVec F S128 .f32) (V (Proc.devRef .tc main_arg4) : FVec F S128x128 .f32) := by
  unfold s2; after_results_simp <;> (try simp only [TRef.ofBuf, TRef.toBuf, cast_eq]) <;> rfl
theorem s2_v1 : after (s2 (F := F)) V (Proc.devRef .tc main_v1) = V (Proc.devRef .tc main_v1) := by
  unfold s2; after_results_simp <;> rfl
theorem s2_v3 : after (s2 (F := F)) V (Proc.devRef .tc main_v3) = V (Proc.devRef .tc main_v3) := by
  unfold s2; after_results_simp <;> rfl
theorem s2_arg0 : after (s2 (F := F)) V (Proc.devRef .tc main_arg0) = V (Proc.devRef .tc main_arg0) := by
  unfold s2; after_results_simp <;> rfl
theorem s2_arg1 : after (s2 (F := F)) V (Proc.devRef .tc main_arg1) = V (Proc.devRef .tc main_arg1) := by
  unfold s2; after_results_simp <;> rfl
theorem s2_arg2 : after (s2 (F := F)) V (Proc.devRef .tc main_arg2) = V (Proc.devRef .tc main_arg2) := by
  unfold s2; after_results_simp <;> rfl
theorem s2_arg3 : after (s2 (F := F)) V (Proc.devRef .tc main_arg3) = V (Proc.devRef .tc main_arg3) := by
  unfold s2; after_results_simp <;> rfl
theorem s2_arg4 : after (s2 (F := F)) V (Proc.devRef .tc main_arg4) = V (Proc.devRef .tc main_arg4) := by
  unfold s2; after_results_simp <;> rfl
theorem s2_arg5 : after (s2 (F := F)) V (Proc.devRef .tc main_arg5) = V (Proc.devRef .tc main_arg5) := by
  unfold s2; after_results_simp <;> rfl
theorem s2_arg6 : after (s2 (F := F)) V (Proc.devRef .tc main_arg6) = V (Proc.devRef .tc main_arg6) := by
  unfold s2; after_results_simp <;> rfl
theorem s2_arg7 : after (s2 (F := F)) V (Proc.devRef .tc main_arg7) = V (Proc.devRef .tc main_arg7) := by
  unfold s2; after_results_simp <;> rfl

/-! ### The third stretch -/

/-- After the third stretch: the hidden rows' mean over incoming edges, the edges' rows as the first stretch left them. -/
theorem s3_v48 : after (s3 (F := F)) V (Proc.devRef .tc main_v48)
    = aggT (V (Proc.devRef .tc main_v29) : FVec F S100000x128 .f32) (V (Proc.devRef .tc main_v1) : IVec S1600000 32) (V (Proc.devRef .tc main_v3) : IVec S1600000 32) := by
  unfold s3; after_results_simp <;> rfl
theorem s3_v29 : after (s3 (F := F)) V (Proc.devRef .tc main_v29) = V (Proc.devRef .tc main_v29) := by
  unfold s3; after_results_simp <;> rfl
theorem s3_arg0 : after (s3 (F := F)) V (Proc.devRef .tc main_arg0) = V (Proc.devRef .tc main_arg0) := by
  unfold s3; after_results_simp <;> rfl
theorem s3_arg1 : after (s3 (F := F)) V (Proc.devRef .tc main_arg1) = V (Proc.devRef .tc main_arg1) := by
  unfold s3; after_results_simp <;> rfl
theorem s3_arg2 : after (s3 (F := F)) V (Proc.devRef .tc main_arg2) = V (Proc.devRef .tc main_arg2) := by
  unfold s3; after_results_simp <;> rfl
theorem s3_arg3 : after (s3 (F := F)) V (Proc.devRef .tc main_arg3) = V (Proc.devRef .tc main_arg3) := by
  unfold s3; after_results_simp <;> rfl
theorem s3_arg4 : after (s3 (F := F)) V (Proc.devRef .tc main_arg4) = V (Proc.devRef .tc main_arg4) := by
  unfold s3; after_results_simp <;> rfl
theorem s3_arg5 : after (s3 (F := F)) V (Proc.devRef .tc main_arg5) = V (Proc.devRef .tc main_arg5) := by
  unfold s3; after_results_simp <;> rfl
theorem s3_arg6 : after (s3 (F := F)) V (Proc.devRef .tc main_arg6) = V (Proc.devRef .tc main_arg6) := by
  unfold s3; after_results_simp <;> rfl
theorem s3_arg7 : after (s3 (F := F)) V (Proc.devRef .tc main_arg7) = V (Proc.devRef .tc main_arg7) := by
  unfold s3; after_results_simp <;> rfl

/-! ### The fourth stretch -/

/-- After the fourth stretch: the output layer of the second aggregate and the hidden rows. -/
theorem s4_v55 : after (s4 (F := F)) V (Proc.devRef .tc main_v55)
    = outR (V (Proc.devRef .tc main_v48) : FVec F S100000x128 .f32) (V (Proc.devRef .tc main_v29) : FVec F S100000x128 .f32) (V (Proc.devRef .tc main_arg5) : FVec F S128x40 .f32) (V (Proc.devRef .tc main_arg6) : FVec F S40 .f32) (V (Proc.devRef .tc main_arg7) : FVec F S128x40 .f32) := by
  unfold s4; after_results_simp
  simp only [ofBuf_toBuf, ofBuf_v54, toBuf_v55]
  rfl
theorem s4_arg0 : after (s4 (F := F)) V (Proc.devRef .tc main_arg0) = V (Proc.devRef .tc main_arg0) := by
  unfold s4; after_results_simp <;> rfl
theorem s4_arg1 : after (s4 (F := F)) V (Proc.devRef .tc main_arg1) = V (Proc.devRef .tc main_arg1) := by
  unfold s4; after_results_simp <;> rfl
theorem s4_arg2 : after (s4 (F := F)) V (Proc.devRef .tc main_arg2) = V (Proc.devRef .tc main_arg2) := by
  unfold s4; after_results_simp <;> rfl
theorem s4_arg3 : after (s4 (F := F)) V (Proc.devRef .tc main_arg3) = V (Proc.devRef .tc main_arg3) := by
  unfold s4; after_results_simp <;> rfl
theorem s4_arg4 : after (s4 (F := F)) V (Proc.devRef .tc main_arg4) = V (Proc.devRef .tc main_arg4) := by
  unfold s4; after_results_simp <;> rfl
theorem s4_arg5 : after (s4 (F := F)) V (Proc.devRef .tc main_arg5) = V (Proc.devRef .tc main_arg5) := by
  unfold s4; after_results_simp <;> rfl
theorem s4_arg6 : after (s4 (F := F)) V (Proc.devRef .tc main_arg6) = V (Proc.devRef .tc main_arg6) := by
  unfold s4; after_results_simp <;> rfl
theorem s4_arg7 : after (s4 (F := F)) V (Proc.devRef .tc main_arg7) = V (Proc.devRef .tc main_arg7) := by
  unfold s4; after_results_simp <;> rfl

end Stretches

/-! ## The whole fold -/

section Whole

variable (V : Valuation τ sig (Elt F))

theorem fold_arg0 : after (ops (F := F)) V (Proc.devRef .tc main_arg0) = V (Proc.devRef .tc main_arg0) := by
  rw [ops_eq, StableHlo.after_append, StableHlo.after_append, StableHlo.after_append, s4_arg0, s3_arg0, s2_arg0, s1_arg0]
theorem fold_arg1 : after (ops (F := F)) V (Proc.devRef .tc main_arg1) = V (Proc.devRef .tc main_arg1) := by
  rw [ops_eq, StableHlo.after_append, StableHlo.after_append, StableHlo.after_append, s4_arg1, s3_arg1, s2_arg1, s1_arg1]
theorem fold_arg2 : after (ops (F := F)) V (Proc.devRef .tc main_arg2) = V (Proc.devRef .tc main_arg2) := by
  rw [ops_eq, StableHlo.after_append, StableHlo.after_append, StableHlo.after_append, s4_arg2, s3_arg2, s2_arg2, s1_arg2]
theorem fold_arg3 : after (ops (F := F)) V (Proc.devRef .tc main_arg3) = V (Proc.devRef .tc main_arg3) := by
  rw [ops_eq, StableHlo.after_append, StableHlo.after_append, StableHlo.after_append, s4_arg3, s3_arg3, s2_arg3, s1_arg3]
theorem fold_arg4 : after (ops (F := F)) V (Proc.devRef .tc main_arg4) = V (Proc.devRef .tc main_arg4) := by
  rw [ops_eq, StableHlo.after_append, StableHlo.after_append, StableHlo.after_append, s4_arg4, s3_arg4, s2_arg4, s1_arg4]
theorem fold_arg5 : after (ops (F := F)) V (Proc.devRef .tc main_arg5) = V (Proc.devRef .tc main_arg5) := by
  rw [ops_eq, StableHlo.after_append, StableHlo.after_append, StableHlo.after_append, s4_arg5, s3_arg5, s2_arg5, s1_arg5]
theorem fold_arg6 : after (ops (F := F)) V (Proc.devRef .tc main_arg6) = V (Proc.devRef .tc main_arg6) := by
  rw [ops_eq, StableHlo.after_append, StableHlo.after_append, StableHlo.after_append, s4_arg6, s3_arg6, s2_arg6, s1_arg6]
theorem fold_arg7 : after (ops (F := F)) V (Proc.devRef .tc main_arg7) = V (Proc.devRef .tc main_arg7) := by
  rw [ops_eq, StableHlo.after_append, StableHlo.after_append, StableHlo.after_append, s4_arg7, s3_arg7, s2_arg7, s1_arg7]

/-- The result buffer after all the operations: the whole reference of the arguments' contents. -/
theorem fold_v55 : after (ops (F := F)) V (Proc.devRef .tc main_v55)
    = wholeR (V (Proc.devRef .tc main_arg0) : FVec F S100000x128 .f32) (V (Proc.devRef .tc main_arg1) : IVec S2x1600000 32) (V (Proc.devRef .tc main_arg2) : FVec F S128x128 .f32) (V (Proc.devRef .tc main_arg3) : FVec F S128 .f32) (V (Proc.devRef .tc main_arg4) : FVec F S128x128 .f32) (V (Proc.devRef .tc main_arg5) : FVec F S128x40 .f32) (V (Proc.devRef .tc main_arg6) : FVec F S40 .f32) (V (Proc.devRef .tc main_arg7) : FVec F S128x40 .f32) := by
  rw [ops_eq, StableHlo.after_append, StableHlo.after_append, StableHlo.after_append, s4_v55,
    s3_v48, s3_v29, s3_arg5, s3_arg6, s3_arg7,
    s2_v29, s2_v1, s2_v3, s2_arg5, s2_arg6, s2_arg7,
    s1_v22, s1_v1, s1_v3, s1_arg0, s1_arg2, s1_arg3, s1_arg4, s1_arg5, s1_arg6, s1_arg7]
  rfl

end Whole

/-- On every device, from any memory with zero counters: every weakly fair execution of @main terminates with the
    result buffer at the whole reference of the arguments' launch contents, the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = wholeR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (fold_v55 _),
      (h c main_arg0).trans (fold_arg0 _),
      (h c main_arg1).trans (fold_arg1 _),
      (h c main_arg2).trans (fold_arg2 _),
      (h c main_arg3).trans (fold_arg3 _),
      (h c main_arg4).trans (fold_arg4 _),
      (h c main_arg5).trans (fold_arg5 _),
      (h c main_arg6).trans (fold_arg6 _),
      (h c main_arg7).trans (fold_arg7 _)⟩)
    (run_fold m ρ)

end Cert.ReferenceIdeal.Whole

end
-- ==== Proof.RefLayers.lean ====
/-
  The reference program's two layers, read index by index over the extended reals, are the
  specification's two layers.

  The hidden layer as the host computes it is, at `(p, q)`, the maximum of
  `((∑ k, a[p, k] * wl[k, q]) + b[q]) + ∑ k, x[p, k] * wr[k, q]` and zero: a product of an
  `[M, K]` array by a `[K, N]` array is the sum over the contracted coordinate, the bias laid along
  every row is read at its column, and the scalar laid over the whole array is read at its one entry.
  The output layer's scores are the same affine expression; a row's maximum is the fold of `max`
  from `-∞` over the row's entries (the second maximum against `-∞` changes nothing), the row sum
  of the exponentials of the shifted scores is the sum over the row's entries from zero, and the
  column laid along every row is read at its row.
-/
import proofs.«138470_j38628935860964_1_alg».proof.Proof.RStages
import proofs.«138470_j38628935860964_1_alg».proof.Proof.Spec
import proofs.«138470_j38628935860964_1_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Layers

open Cert.ReferenceIdeal Cert.ReferenceIdeal.Gen Cert.ReferenceIdeal.Stages
open Idealize.ShloMosaic Idealize.ShloMosaic.ValueIdx

/-! ## Layout operations read at an index -/

/-- A length-`N` vector laid along every row of an `[M, N]` array (first as a `[1, N]` array), read
    at `(p, q)`: the vector's entry `q`. -/
theorem rowBcast_apply {α : Type} {M N : Nat} (hN : N ≠ 1)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) (p : Fin M) (q : Fin N) :
    broadcastInDim ⟨2, ![M, N]⟩ ![0, 1] h2 (broadcastInDim ⟨2, ![1, N]⟩ ![1] h1 b) (ix2 p q) = b (ix1 q) := by
  refine (broadcastInDim_apply _ h2 _ (ix2 p q) (ix2 ⟨0, Nat.one_pos⟩ q) (fun a => match a with
    | ⟨0, _⟩ => by show 0 = if (1 : Nat) = 1 then 0 else p.val; rw [if_pos rfl]
    | ⟨1, _⟩ => by show q.val = if N = 1 then 0 else q.val; rw [if_neg hN])).trans ?_
  exact broadcastInDim_apply _ h1 b _ (ix1 q) (fun a => match a with
    | ⟨0, _⟩ => by show q.val = if N = 1 then 0 else q.val; rw [if_neg hN])

/-- A length-`M` vector laid along every column of an `[M, N]` array (first as an `[M, 1]` array),
    read at `(p, q)`: the vector's entry `p`. -/
theorem colBcast_apply {α : Type} {M N : Nat} (hM : M ≠ 1)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2))
    (v : (⟨1, ![M]⟩ : Shape).Idx → α) (p : Fin M) (q : Fin N) :
    broadcastInDim ⟨2, ![M, N]⟩ ![0, 1] h2 (broadcastInDim ⟨2, ![M, 1]⟩ ![0] h1 v) (ix2 p q) = v (ix1 p) := by
  refine (broadcastInDim_apply _ h2 _ (ix2 p q) (ix2 p ⟨0, Nat.one_pos⟩) (fun a => match a with
    | ⟨0, _⟩ => by show p.val = if M = 1 then 0 else p.val; rw [if_neg hM]
    | ⟨1, _⟩ => by show 0 = if (1 : Nat) = 1 then 0 else q.val; rw [if_pos rfl])).trans ?_
  exact broadcastInDim_apply _ h1 v _ (ix1 p) (fun a => match a with
    | ⟨0, _⟩ => by show p.val = if M = 1 then 0 else p.val; rw [if_neg hM])

/-- A scalar constant laid over a whole array, read anywhere: the constant's word. -/
theorem scalarBcast_apply {t : Shape} (c : BitVec 32)
    (h : S_.BroadcastsInDim t (![] : Fin 0 → Fin t.rank)) (i : t.Idx) :
    broadcastInDim t ![] h (constant (F := Ideal) S_ .f32 c) i = Ideal.ofBits .f32 c :=
  broadcastInDim_apply _ h _ i ix0 (fun a => a.elim0)

/-! ## The products -/

/-- The hidden layer's product of `[100000, 128]` by `[128, 128]`, at `(p, q)`. -/
theorem dotH_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) :=
  Dot2.host_dotGeneral_mm_apply dot_S100000x128_S128x128_S100000x128_1_0_0_1_n_n_wf none l r p q

/-- The output layer's product of `[100000, 128]` by `[128, 40]`, at `(p, q)`. -/
theorem dotO_apply (l : FVec Ideal S100000x128 .f32) (r : FVec Ideal S128x40 .f32) (p : Fin 100000) (q : Fin 40) :
    Host.dotGeneral (F := Ideal) dot_S100000x128_S128x40_S100000x40_1_0_0_1_n_n none l r (ix2 p q)
      = ∑ k : Fin 128, l (ix2 p k) * r (ix2 k q) :=
  Dot2.host_dotGeneral_mm_apply dot_S100000x128_S128x40_S100000x40_1_0_0_1_n_n_wf none l r p q

/-! ## The hidden layer -/

/-- The hidden layer as the host computes it is the specification's hidden layer. -/
theorem hidR_eq (a x : FVec Ideal S100000x128 .f32) (wl : FVec Ideal S128x128 .f32) (b : FVec Ideal S128 .f32)
    (wr : FVec Ideal S128x128 .f32) :
    hidR (F := Ideal) a x wl b wr = Cert.Sage.hidden a x wl wr b := by
  funext i
  obtain ⟨p, q, rfl⟩ : ∃ (p : Fin 100000) (q : Fin 128), i = ix2 p q := ⟨i 0, i 1, eq_ix2 i⟩
  rw [Cert.Sage.hidden_ix2]
  unfold hidR Cert.Sage.affine
  rw [maximumf_apply, addf_apply, addf_apply, dotH_apply, dotH_apply,
    rowBcast_apply (by decide), scalarBcast_apply]

/-! ## The output layer -/

/-- The output layer's scores at `(p, q)`: the specification's affine expression. -/
theorem logitsR_apply (a h : FVec Ideal S100000x128 .f32) (wl : FVec Ideal S128x40 .f32) (b : FVec Ideal S40 .f32)
    (wr : FVec Ideal S128x40 .f32) (p : Fin 100000) (q : Fin 40) :
    logitsR (F := Ideal) a h wl b wr (ix2 p q) = Cert.Sage.affine a h wl wr b p q := by
  unfold logitsR Cert.Sage.affine
  rw [addf_apply, addf_apply, dotO_apply, dotO_apply, rowBcast_apply (by decide)]

/-- Row `p` of a `[100000, 40]` array, entry by entry: the index over `p` with coordinate `k`
    inserted on axis 1 is `(p, k)`. -/
theorem lift_row (hr : S100000x40.Reduces [1] S100000) (p : Fin 100000) (k : Fin 40) :
    hr.lift (ix1 p) k = ix2 p k :=
  funext fun c => Fin.ext (by match c with | ⟨0, _⟩ => rfl | ⟨1, _⟩ => rfl)

/-- Each row's maximum as the host computes it (a fold of `max` from `-∞` along the row, then once
    more the maximum against `-∞`) is the row's maximum. -/
theorem rowMaxR_apply (z : FVec Ideal S100000x40 .f32) (p : Fin 100000) :
    rowMaxR (F := Ideal) z (ix1 p) = Cert.Sage.rowMax (fun j : Fin 40 => z (ix2 p j)) := by
  have hr : S100000x40.Reduces [1] S100000 := by decide
  have e : Host.reduce (FloatOps.maximumf (F := Ideal) (φ := .f32)) z (constant (F := Ideal) S_ .f32 0xFF800000#32)
        reducesTo_S100000x40_S100000_d1 h_S_ (ix1 p)
      = Cert.Sage.rowMax (fun j : Fin 40 => z (ix2 p j)) := by
    rw [Host.reduce_eq_fold_single _ z _ reducesTo_S100000x40_S100000_d1 hr h_S_ (ix1 p)]
    have hl : (z ∘ hr.lift (ix1 p)) = fun j : Fin 40 => z (ix2 p j) :=
      funext fun k => congrArg z (lift_row hr p k)
    rw [hl]
    rfl
  unfold rowMaxR
  rw [maximumf_apply, scalarBcast_apply, e]
  exact Cert.Sage.max_rowMax _

/-- The shifted scores at `(p, q)`: the score less its row's maximum. -/
theorem shiftedR_apply (z : FVec Ideal S100000x40 .f32) (p : Fin 100000) (q : Fin 40) :
    shiftedR (F := Ideal) z (ix2 p q) = z (ix2 p q) - Cert.Sage.rowMax (fun j : Fin 40 => z (ix2 p j)) := by
  unfold shiftedR
  rw [subf_apply, colBcast_apply (by decide), rowMaxR_apply]

/-- The host's sum along each row from zero, at row `p`: the sum of the row's entries. -/
theorem rowSumR_apply (y : FVec Ideal S100000x40 .f32) (p : Fin 100000) :
    Host.reduceAdd (F := Ideal) y (constant (F := Ideal) S_ .f32 0x00000000#32) reducesTo_S100000x40_S100000_d1 h_S_ (ix1 p)
      = ∑ j : Fin 40, y (ix2 p j) := by
  have hr : S100000x40.Reduces [1] S100000 := by decide
  unfold Host.reduceAdd
  rw [Ideal.hostReduceAdd_def, Ideal.hostReduceAdd_single reducesTo_S100000x40_S100000_d1 hr, constant_apply,
    Ideal.ofBits_zero_f32, zero_add]
  exact Finset.sum_congr rfl fun k _ => congrArg y (lift_row hr p k)

/-- The host's logarithm and exponential act entry by entry. -/
theorem log_apply {s : Shape} (v : FVec Ideal s .f32) (i : s.Idx) : Host.log (F := Ideal) v i = Ideal.log (v i) := rfl

theorem exp_apply {s : Shape} (v : FVec Ideal s .f32) (i : s.Idx) : Host.exp (F := Ideal) v i = Ideal.exp (v i) := rfl

/-- The logarithm of the softmax along each row as the host computes it, at `(p, q)`. -/
theorem lsmR_apply (z : FVec Ideal S100000x40 .f32) (p : Fin 100000) (q : Fin 40) :
    lsmR (F := Ideal) z (ix2 p q) = Cert.Sage.logSoftmaxRow (fun j : Fin 40 => z (ix2 p j)) q := by
  -- the logarithm commutes with laying a column out: both read the column at its row
  have hlog : ∀ v : FVec Ideal S100000 .f32,
      Host.log (F := Ideal) (broadcastInDim S100000x1 ![0] bcast_S100000_S100000x1_0 v)
        = broadcastInDim S100000x1 ![0] bcast_S100000_S100000x1_0 (Host.log (F := Ideal) v) := fun _ => rfl
  unfold lsmR Cert.Sage.logSoftmaxRow
  rw [subf_apply, shiftedR_apply, hlog, colBcast_apply (by decide), log_apply, rowSumR_apply]
  refine congrArg (fun s => _ - Ideal.log s) (Finset.sum_congr rfl fun j _ => ?_)
  rw [exp_apply, shiftedR_apply]

/-- The output layer as the host computes it is the specification's output layer. -/
theorem outR_eq (a h : FVec Ideal S100000x128 .f32) (wl : FVec Ideal S128x40 .f32) (b : FVec Ideal S40 .f32)
    (wr : FVec Ideal S128x40 .f32) :
    outR (F := Ideal) a h wl b wr = Cert.Sage.output a h wl wr b := by
  funext i
  obtain ⟨p, q, rfl⟩ : ∃ (p : Fin 100000) (q : Fin 40), i = ix2 p q := ⟨i 0, i 1, eq_ix2 i⟩
  rw [Cert.Sage.output_ix2]
  unfold outR
  rw [lsmR_apply]
  exact congrArg (fun f => Cert.Sage.logSoftmaxRow f q) (funext fun j => logitsR_apply a h wl b wr p j)

end Cert.ReferenceIdeal.Layers

end
-- ==== Proof.lean ====
/-
  A two-layer mean-aggregating graph convolution on a row-blocked kernel pair, against its plain
  reference, over the extended reals.

  Both programs aggregate the node features over the incoming edges of every node (gather the rows at
  the edges' sources, add them up at the destinations, divide by the in-degree taken at least one),
  map the aggregate and the features through two weight matrices and a bias and clamp at zero,
  aggregate the hidden features over the same edges, map once more and take the logarithm of the
  softmax along every row. The aggregation is the same host operations in both programs. The kernel
  computes each layer twenty times over blocks of five thousand rows on the matrix unit, the operands
  narrowed to bf16 (the identity on the extended reals) and accumulated into zero; the reference
  computes each layer once by general dot products. A row of either layer depends on the row-aligned
  inputs through that row alone, so the blocks assemble into the layer of the whole arrays, and each
  layer, index by index, is one and the same expression on both sides: a product is the sum over the
  contracted coordinate, a row's maximum the fold of `max` from `-∞`, a row sum a sum from zero.
  No law of arithmetic beyond `0 + s = s` and `max c (fold max c f) = fold max c f` joins the two
  sides, so nothing asks the inputs to be finite.

  The three frames: the word-level kernel's and the idealized kernel's are the frames of their two
  regions among two stretches of host operations; the reference's is its run with the result dropped.
  The idealization rewrote nothing, so `preserves` is trivial.
-/
import proofs.«138470_j38628935860964_1_alg».proof.Defs
import proofs.«138470_j38628935860964_1_alg».proof.Proof.Gen.Kernel
import proofs.«138470_j38628935860964_1_alg».proof.Proof.Gen.Kernel.Frame
import proofs.«138470_j38628935860964_1_alg».proof.Proof.Gen.KernelIdeal
import proofs.«138470_j38628935860964_1_alg».proof.Proof.Gen.KernelIdeal.Frame
import proofs.«138470_j38628935860964_1_alg».proof.Proof.Gen.ReferenceIdeal
import proofs.«138470_j38628935860964_1_alg».proof.Proof.Gen.Pre_finite_inputs
import proofs.«138470_j38628935860964_1_alg».proof.Proof.KernelValue
import proofs.«138470_j38628935860964_1_alg».proof.Proof.RefFold
import proofs.«138470_j38628935860964_1_alg».proof.Proof.RefLayers
import Idealize.ShloMosaic.Adequacy
import Idealize.ShloMosaic.Init

set_option maxRecDepth 16384

noncomputable section

namespace Cert.Proof

open Idealize.ShloMosaic Idealize.SL.Sem

/-- The edges' sources are read off the edge list by the same operations in both programs. -/
theorem src_eq (e : IVec ⟨2, ![2, 1600000]⟩ 32) :
    Cert.ReferenceIdeal.Stages.srcOf e = Cert.KernelIdeal.Stages.srcOf e := rfl

/-- And so are the destinations. -/
theorem dst_eq (e : IVec ⟨2, ![2, 1600000]⟩ 32) :
    Cert.ReferenceIdeal.Stages.dstOf e = Cert.KernelIdeal.Stages.dstOf e := rfl

/-- The mean aggregation is the same operations in both programs. -/
theorem agg_eq (x : FVec Ideal ⟨2, ![100000, 128]⟩ .f32) (s d : IVec ⟨1, ![1600000]⟩ 32) :
    Cert.ReferenceIdeal.Stages.aggT (F := Ideal) x s d = Cert.KernelIdeal.Stages.aggT (F := Ideal) x s d := rfl

/-- The reference's whole function of the arguments is the kernel program's: the layers are the
    specification's on both sides, and the aggregations are the same operations. -/
theorem whole_eq (x : FVec Ideal ⟨2, ![100000, 128]⟩ .f32) (e : IVec ⟨2, ![2, 1600000]⟩ 32)
    (w1l : FVec Ideal ⟨2, ![128, 128]⟩ .f32) (b1 : FVec Ideal ⟨1, ![128]⟩ .f32) (w1r : FVec Ideal ⟨2, ![128, 128]⟩ .f32)
    (w2l : FVec Ideal ⟨2, ![128, 40]⟩ .f32) (b2 : FVec Ideal ⟨1, ![40]⟩ .f32) (w2r : FVec Ideal ⟨2, ![128, 40]⟩ .f32) :
    Cert.ReferenceIdeal.Whole.wholeR (F := Ideal) x e w1l b1 w1r w2l b2 w2r
      = Cert.KernelIdeal.Whole.wholeK x e w1l b1 w1r w2l b2 w2r := by
  unfold Cert.ReferenceIdeal.Whole.wholeR Cert.KernelIdeal.Whole.wholeK
  rw [Cert.ReferenceIdeal.Layers.outR_eq, Cert.ReferenceIdeal.Layers.hidR_eq, src_eq, dst_eq, agg_eq, agg_eq]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Whole.ref_run (F := Ideal) m ρ)

/-- From memories agreeing on the arguments both programs end with the same result: the kernel program's
    function of the arguments, which the reference's equals. -/
theorem algebraic : Cert.algebraic_KernelIdeal_ReferenceIdeal := by
  intro m ρ m' ρ' _ hagree
  refine ⟨fun c => Cert.KernelIdeal.Whole.wholeK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.kernel_run m ρ, ?_⟩
  refine (θ_run Cert.ReferenceIdeal.defs _ _).mono (fun _ h c => ⟨(h c).1.trans ?_, (h c).2⟩)
    (Cert.ReferenceIdeal.Whole.ref_run (F := Ideal) m' ρ')
  obtain ⟨h0, h1, h2, h3, h4, h5, h6, h7⟩ := hagree c
  rw [h0, h1, h2, h3, h4, h5, h6, h7]
  exact whole_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
